-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x4096 : Shape := ⟨2, ![2048, 4096]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x4096 .f32) (main_arg8 : FVec F S2048 .f32) (main_arg9 : FVec F S2048x4096 .f32) (main_arg10 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4096 .f32 := Host.absf main_arg9
  let main_cst_16 : FVec F S_ .f32 := constant S_ .f32 0x7F800000#32
  let main_v45 : FVec F S2048x4096 .f32 := broadcastInDim S2048x4096 ![] bcast_S_S2048x4096 main_cst_16
  let main_v46 : IVec S2048x4096 1 := cmpf .olt main_v44 main_v45
  let main_c_17 : IVec S_ 1 := constantI S_ 1 1#1
  let main_v47 : IVec S_ 1 := (fun x v => Host.reduce IntOp.andi x v reducesTo_S2048x4096_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x2048 .f32) (main_arg1 : FVec F S4096x2048 .f32) (main_arg2 : FVec F S4096x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S4096x2048 : Shape := ⟨2, ![4096, 2048]⟩
abbrev S2048x4096 : Shape := ⟨2, ![2048, 4096]⟩
abbrev S2048 : Shape := ⟨1, ![2048]⟩
abbrev S4096x4096 : Shape := ⟨2, ![4096, 4096]⟩
abbrev S1x2048 : Shape := ⟨2, ![1, 2048]⟩
abbrev S512x4096 : Shape := ⟨2, ![512, 4096]⟩
abbrev S256x4096 : Shape := ⟨2, ![256, 4096]⟩
abbrev S1x256 : Shape := ⟨2, ![1, 256]⟩
abbrev S512x256 : Shape := ⟨2, ![512, 256]⟩

abbrev nBuf : Space → Nat
  | .hbm => 23
  | .vmem => 24
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x4096, .f32⟩
  | .hbm, ⟨12, _⟩ => ⟨S4096x4096, .bf16⟩
  | .hbm, ⟨13, _⟩ => ⟨S2048x4096, .bf16⟩
  | .hbm, ⟨14, _⟩ => ⟨S2048x4096, .bf16⟩
  | .hbm, ⟨15, _⟩ => ⟨S2048x4096, .bf16⟩
  | .hbm, ⟨16, _⟩ => ⟨S2048x4096, .bf16⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S4096x2048, .f32⟩
  | .hbm, ⟨22, _⟩ => ⟨S4096x2048, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S256x4096, .bf16⟩
  | .local _ .vmem, ⟨9, _⟩ => ⟨S256x4096, .bf16⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  concatenates_S4096x2048_S4096x2048_S4096x4096_d1 : Shape.Concatenates [S4096x2048, S4096x2048] S4096x4096 1
  bitsLt_bf16_f32 : FTy.bits .bf16 < FTy.bits .f32
  shapeCasts_S2048_S1x2048 : S2048.ShapeCasts S1x2048
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S2048x4096.size a
  hwx0_1 : ∀ i : grid0.Coords, EltTy.bits .bf16 = 32 ∨ (Rect.block (s := S2048x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S2048x4096.size a
  hwx0_2 : ∀ i : grid0.Coords, EltTy.bits .bf16 = 32 ∨ (Rect.block (s := S2048x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S2048x4096.size a
  hwx0_3 : ∀ i : grid0.Coords, EltTy.bits .bf16 = 32 ∨ (Rect.block (s := S2048x4096) S256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S2048x4096.size a
  hwx0_4 : ∀ i : grid0.Coords, EltTy.bits .bf16 = 32 ∨ (Rect.block (s := S2048x4096) S256x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x2048.size a
  hwx0_7 : ∀ i : grid0.Coords, EltTy.bits .f32 = 32 ∨ (Rect.block (s := S1x2048) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x2048.size a
  hwx0_8 : ∀ i : grid0.Coords, EltTy.bits .f32 = 32 ∨ (Rect.block (s := S1x2048) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S4096x2048.size a
  hwx0_9 : ∀ i : grid0.Coords, EltTy.bits .f32 = 32 ∨ (Rect.block (s := S4096x2048) S512x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S4096x2048.size a
  hwx0_10 : ∀ i : grid0.Coords, EltTy.bits .f32 = 32 ∨ (Rect.block (s := S4096x2048) S512x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x256.size a ≤ S4096x2048.size a
  hwx0_11 : ∀ i : grid0.Coords, EltTy.bits .f32 = 32 ∨ (Rect.block (s := S4096x2048) S512x256.size (cc0_transform_11 i) (hinb0_11 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S512x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10_0) S512x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10_1) S512x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x4096 : Shape := ⟨2, ![2048, 4096]⟩
abbrev S2048 : Shape := ⟨1, ![2048]⟩
abbrev S4096x4096 : Shape := ⟨2, ![4096, 4096]⟩
abbrev S8192x4096 : Shape := ⟨2, ![8192, 4096]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x4096, .f32⟩
  | .hbm, ⟨12, _⟩ => ⟨S8192x4096, .f32⟩
  | .hbm, ⟨13, _⟩ => ⟨S8192, .f32⟩
  | .hbm, ⟨14, _⟩ => ⟨S4096x8192, .f32⟩
  | .hbm, ⟨15, _⟩ => ⟨S4096x8192, .f32⟩
  | .hbm, ⟨16, _⟩ => ⟨S1x8192, .f32⟩
  | .hbm, ⟨17, _⟩ => ⟨S4096x8192, .f32⟩
  | .hbm, ⟨18, _⟩ => ⟨S4096x8192, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S4096x2048_S4096x2048_S4096x4096_d1 : Shape.Concatenates [S4096x2048, S4096x2048] S4096x4096 1
  concatenates_S2048x4096_S2048x4096_S2048x4096_S2048x4096_S8192x4096_d0 : Shape.Concatenates [S2048x4096, S2048x4096, S2048x4096, S2048x4096] S8192x4096 0
  concatenates_S2048_S2048_S2048_S2048_S8192_d0 : Shape.Concatenates [S2048, S2048, S2048, S2048] S8192 0
  transposes_S8192x4096_S4096x8192_1_0 : S8192x4096.Transposes [1, 0] S4096x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.LstmSpec.lean ====
/-
  The LSTM cell as ONE function of its arrays, entry by entry, on the extended reals.

  With `u` the joined activations (a row per batch element, 4096 features), and for each of the four gates a weight
  matrix `W` (a row per hidden unit) and a bias `b`, the gate's pre-activation at batch row `r` and hidden unit `h`
  is `∑ k, u[r, k] · W[h, k] + b[h]`. The new cell state is `c · σ(f) + σ(i) · tanh(g)` and the new hidden state
  `σ(o) · tanh(cell)`, with `σ x = 1 / (1 + e⁻ˣ)`.
-/
import Idealize.ShloMosaic.PureOps.Ideal
import Idealize.ShloMosaic.Lib.ValueIdx

noncomputable section

open scoped BigOperators

namespace Cert.Lstm

open Idealize.ShloMosaic Idealize.ShloMosaic.ValueIdx

/-- The joined activations, a weight matrix, a bias, a state array. -/
abbrev Act : Type := (⟨2, ![4096, 4096]⟩ : Shape).Idx → EReal
abbrev Wgt : Type := (⟨2, ![2048, 4096]⟩ : Shape).Idx → EReal
abbrev Bias : Type := (⟨1, ![2048]⟩ : Shape).Idx → EReal
abbrev State : Type := (⟨2, ![4096, 2048]⟩ : Shape).Idx → EReal

/-- A gate's pre-activation at batch row `r`, hidden unit `h`. -/
def pre (u : Act) (W : Wgt) (b : Bias) (r : Fin 4096) (h : Fin 2048) : EReal :=
  (∑ k : Fin 4096, u (ix2 r k) * W (ix2 h k)) + b (ix1 h)

/-- The new cell state at `(r, h)`: the old one scaled by the forget gate, plus the input gate times the candidate. -/
def cellAt (u : Act) (c : State) (Wi : Wgt) (bi : Bias) (Wf : Wgt) (bf : Bias) (Wc : Wgt) (bc : Bias)
    (r : Fin 4096) (h : Fin 2048) : EReal :=
  c (ix2 r h) * Ideal.logistic (pre u Wf bf r h) + Ideal.logistic (pre u Wi bi r h) * Ideal.tanh (pre u Wc bc r h)

/-- The new hidden state at `(r, h)`: the output gate times the squashed new cell state. -/
def hiddenAt (u : Act) (c : State) (Wi : Wgt) (bi : Bias) (Wf : Wgt) (bf : Bias) (Wc : Wgt) (bc : Bias) (Wo : Wgt) (bo : Bias)
    (r : Fin 4096) (h : Fin 2048) : EReal :=
  Ideal.logistic (pre u Wo bo r h) * Ideal.tanh (cellAt u c Wi bi Wf bf Wc bc r h)

/-- The new cell state, as an array. -/
def cell (u : Act) (c : State) (Wi : Wgt) (bi : Bias) (Wf : Wgt) (bf : Bias) (Wc : Wgt) (bc : Bias) : State :=
  fun i => cellAt u c Wi bi Wf bf Wc bc (i 0) (i 1)

/-- The new hidden state, as an array. -/
def hidden (u : Act) (c : State) (Wi : Wgt) (bi : Bias) (Wf : Wgt) (bf : Bias) (Wc : Wgt) (bc : Bias) (Wo : Wgt) (bo : Bias) : State :=
  fun i => hiddenAt u c Wi bi Wf bf Wc bc Wo bo (i 0) (i 1)

/-- The word of `1.0` is the real number one. -/
theorem ofBits_one : Ideal.ofBits .f32 0x3F800000#32 = 1 := by
  simp [Ideal.ofBits, Ideal.ieee, -EReal.coe_mul]; norm_num

end Cert.Lstm

end
-- ==== Proof.LibMatmulNT.lean ====
/-
  A matrix product whose right operand is stored row by output column, read at an entry, at the ideal values.

  For dimension numbers that contract the left operand's second axis against the right operand's SECOND axis, with
  no batch axis — `[M, K] · [N, K] → [M, N]`, the product `A · Bᵀ` — the product into a zero accumulator has, at
  row `o` and column `t`, the entry `∑ c, A[o, c] · B[t, c]`. The contraction's index set has one axis; the sum
  over it is re-indexed by that axis's coordinate.
-/
import Idealize.ShloMosaic.PureOps.Ideal.Laws
import Idealize.ShloMosaic.Lib.ValueIdx

noncomputable section

open scoped BigOperators

namespace Cert.LibMatmulNT

open Idealize.ShloMosaic Idealize.ShloMosaic.ValueIdx

variable {M K N : ℕ} (D : DotDims ⟨2, ![M, K]⟩ ⟨2, ![N, K]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's ROW is the result's column. -/
theorem rhs_row (hb : D.rhsBatch = []) (hlb : D.lhsBatch = []) (hln : D.lhsNonContracting = [0]) (hn : D.rhsNonContracting = [0])
    (i : (⟨2, ![M, N]⟩ : Shape).Idx) (q : D.contr.Idx) :
    (D.rhsIdx i q 0).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY: row `o` of the left operand against row `t` of the right. -/
theorem matmul_zero_at {φ₁ φ₂ : FTy} (hlc : D.lhsContracting = [1]) (hrc : D.rhsContracting = [1]) (hlb : D.lhsBatch = [])
    (hrb : D.rhsBatch = []) (hln : D.lhsNonContracting = [0]) (hrn : D.rhsNonContracting = [0])
    (prec : Option ContractPrecision) (A : FVec Ideal ⟨2, ![M, K]⟩ φ₁) (B : FVec Ideal ⟨2, ![N, K]⟩ φ₂) (o : Fin M) (t : Fin N) :
    FloatOps.matmul D prec A B (constant ⟨2, ![M, N]⟩ .f32 0x00000000#32) (ix2 o t) = ∑ c : Fin K, A (ix2 o c) * B (ix2 t c) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 t k :=
    funext fun a => Fin.ext (by
      match a with
      | ⟨0, _⟩ => exact rhs_row D hrb hlb hln hrn _ _
      | ⟨1, _⟩ => exact (D.rhsIdx_val_of_single hrc _ _).trans hk)
  rw [el, er]

end Cert.LibMatmulNT

end
-- ==== Proof.KernelBlock.lean ====
/-
  What one grid point of the kernel stores, entry by entry, from the blocks it loaded.

  A point holds a [512, 4096] block of the joined activations, a [256, 4096] block of each gate's weights, a
  [1, 256] block of each gate's bias and a [512, 256] block of the old cell state. Each gate is the block of
  activations times the TRANSPOSE of the gate's weight block, plus the bias row repeated down the 512 rows; at
  entry `(p, q)` that is `∑ k, a[p, k] · w[q, k] + b[0, q]`. Where the blocks are the rows `r`, `h` of the whole
  arrays, it is the specification's pre-activation at `(r, h)`, and the two stored blocks are the specification's
  new cell and hidden states there.
-/
import proofs.«118416_j56100862820648_1_alg».proof.Proof.Gen.KernelIdeal.Skeleton
import proofs.«118416_j56100862820648_1_alg».proof.Proof.LstmSpec
import proofs.«118416_j56100862820648_1_alg».proof.Proof.LibMatmulNT
import Idealize.ShloMosaic.Lib.Pipeline.Value
import Idealize.ShloMosaic.Lib.ValueIdx
import Idealize.ShloMosaic.Lib.ValueLayout

noncomputable section

open scoped BigOperators

namespace Cert.Lstm.Ker

open Cert.KernelIdeal Cert.KernelIdeal.Gen
open Idealize.ShloMosaic Idealize.ShloMosaic.ValueIdx

/-- A gate's pre-activation at entry `(p, q)` of a point's block, from the loaded blocks. -/
def preBlk (a : Vec Ideal S512x4096 .bf16) (w : Vec Ideal S256x4096 .bf16) (b : Vec Ideal S1x256 .f32)
    (p : Fin 512) (q : Fin 256) : EReal :=
  (∑ k : Fin 4096, a (ix2 p k) * w (ix2 q k)) + b (ix2 (0 : Fin 1) q)

/-- The product of the activations' block with a transposed weight block, plus the bias row, at an entry. -/
theorem gate_at (a : Vec Ideal S512x4096 .bf16) (w : Vec Ideal S256x4096 .bf16) (b : Vec Ideal S1x256 .f32)
    (p : Fin 512) (q : Fin 256) :
    addf (F := Ideal) (matmul (F := Ideal) dot_S512x4096_S256x4096_S512x256_1_1_0_0_n_n none
        (shapeCast S512x4096 a shapeCasts_S512x4096_S512x4096 : FVec Ideal S512x4096 .bf16)
        (shapeCast S256x4096 w shapeCasts_S256x4096_S256x4096 : FVec Ideal S256x4096 .bf16) (constant (F := Ideal) S512x256 .f32 0x00000000#32))
      (broadcastTo S512x256 (shapeCast S1x256 b shapeCasts_S1x256_S1x256 : FVec Ideal S1x256 .f32) broadcasts_S1x256_S512x256) (ix2 p q)
      = preBlk a w b p q := by
  rw [shapeCast_self, shapeCast_self, shapeCast_self]
  show FloatOps.matmul (F := Ideal) dot_S512x4096_S256x4096_S512x256_1_1_0_0_n_n none (a : FVec Ideal S512x4096 .bf16) (w : FVec Ideal S256x4096 .bf16) (constant (F := Ideal) S512x256 .f32 0x00000000#32) (ix2 p q)
      + broadcastTo S512x256 (b : FVec Ideal S1x256 .f32) broadcasts_S1x256_S512x256 (ix2 p q) = _
  rw [Cert.LibMatmulNT.matmul_zero_at dot_S512x4096_S256x4096_S512x256_1_1_0_0_n_n rfl rfl rfl rfl rfl rfl,
    broadcastTo_1b_ab_apply]
  rfl

/-- The input gate's block: the logistic function of its pre-activation. -/
theorem pay4_at (v0 : Vec Ideal S512x4096 .bf16) (v2 : Vec Ideal S256x4096 .bf16) (v11 : Vec Ideal S1x256 .f32)
    (p : Fin 512) (q : Fin 256) :
    k0_pay4 (F := Ideal) v0 v2 v11 (ix2 p q) = Ideal.logistic (preBlk v0 v2 v11 p q) := by
  unfold k0_pay4 k0_pay3
  exact congrArg Ideal.logistic (gate_at v0 v2 v11 p q)

/-- The forget gate's block. -/
theorem pay5_at (v0 : Vec Ideal S512x4096 .bf16) (v4 : Vec Ideal S256x4096 .bf16) (v16 : Vec Ideal S1x256 .f32)
    (p : Fin 512) (q : Fin 256) :
    k0_pay5 (F := Ideal) v0 v4 v16 (ix2 p q) = Ideal.logistic (preBlk v0 v4 v16 p q) := by
  unfold k0_pay5 k0_pay3
  exact congrArg Ideal.logistic (gate_at v0 v4 v16 p q)

/-- The candidate's block: the hyperbolic tangent of its pre-activation. -/
theorem pay6_at (v0 : Vec Ideal S512x4096 .bf16) (v6 : Vec Ideal S256x4096 .bf16) (v21 : Vec Ideal S1x256 .f32)
    (p : Fin 512) (q : Fin 256) :
    k0_pay6 (F := Ideal) v0 v6 v21 (ix2 p q) = Ideal.tanh (preBlk v0 v6 v21 p q) := by
  unfold k0_pay6 k0_pay3
  exact congrArg Ideal.tanh (gate_at v0 v6 v21 p q)

/-- The output gate's block. -/
theorem pay7_at (v0 : Vec Ideal S512x4096 .bf16) (v8 : Vec Ideal S256x4096 .bf16) (v26 : Vec Ideal S1x256 .f32)
    (p : Fin 512) (q : Fin 256) :
    k0_pay7 (F := Ideal) v0 v8 v26 (ix2 p q) = Ideal.logistic (preBlk v0 v8 v26 p q) := by
  unfold k0_pay7 k0_pay3
  exact congrArg Ideal.logistic (gate_at v0 v8 v26 p q)

/-- Where the loaded blocks are rows `r` of the activations and rows `h` of a gate's weights and bias, the block's
    pre-activation is the specification's. -/
theorem preBlk_eq (a : Vec Ideal S512x4096 .bf16) (w : Vec Ideal S256x4096 .bf16) (b : Vec Ideal S1x256 .f32)
    (U : Act) (W : Wgt) (B : Bias) (p : Fin 512) (q : Fin 256) (r : Fin 4096) (h : Fin 2048)
    (ha : ∀ k : Fin 4096, a (ix2 p k) = U (ix2 r k)) (hw : ∀ k : Fin 4096, w (ix2 q k) = W (ix2 h k))
    (hb : b (ix2 (0 : Fin 1) q) = B (ix1 h)) :
    preBlk a w b p q = pre U W B r h := by
  unfold preBlk pre
  rw [hb]
  exact congrArg (· + B (ix1 h)) (Finset.sum_congr rfl fun k _ => by rw [ha k, hw k])

/-- THE CELL BLOCK a point stores, at entry `(p, q)`: the specification's new cell state at `(r, h)`. -/
theorem cell_block (x0 : Vec Ideal S512x4096 .bf16) (x1 x2 x3 : Vec Ideal S256x4096 .bf16)
    (x5 x6 x7 : Vec Ideal S1x256 .f32) (x9 : Vec Ideal S512x256 .f32)
    (U : Act) (C : State) (Wi : Wgt) (bi : Bias) (Wf : Wgt) (bf : Bias) (Wc : Wgt) (bc : Bias)
    (p : Fin 512) (q : Fin 256) (r : Fin 4096) (h : Fin 2048)
    (h0 : ∀ k : Fin 4096, x0 (ix2 p k) = U (ix2 r k))
    (h1 : ∀ k : Fin 4096, x1 (ix2 q k) = Wi (ix2 h k)) (h2 : ∀ k : Fin 4096, x2 (ix2 q k) = Wf (ix2 h k))
    (h3 : ∀ k : Fin 4096, x3 (ix2 q k) = Wc (ix2 h k))
    (h5 : x5 (ix2 (0 : Fin 1) q) = bi (ix1 h)) (h6 : x6 (ix2 (0 : Fin 1) q) = bf (ix1 h))
    (h7 : x7 (ix2 (0 : Fin 1) q) = bc (ix1 h)) (h9 : x9 (ix2 p q) = C (ix2 r h)) :
    k0_pay1 (F := Ideal) (k0_pay4 x0 x1 x5) (k0_pay5 x0 x2 x6) (k0_pay6 x0 x3 x7) x9 (ix2 p q)
      = cellAt U C Wi bi Wf bf Wc bc r h := by
  unfold k0_pay1 cellAt
  show x9 (ix2 p q) * k0_pay5 (F := Ideal) x0 x2 x6 (ix2 p q)
      + k0_pay4 (F := Ideal) x0 x1 x5 (ix2 p q) * k0_pay6 (F := Ideal) x0 x3 x7 (ix2 p q) = _
  rw [pay4_at, pay5_at, pay6_at, h9, preBlk_eq x0 x1 x5 U Wi bi p q r h h0 h1 h5,
    preBlk_eq x0 x2 x6 U Wf bf p q r h h0 h2 h6, preBlk_eq x0 x3 x7 U Wc bc p q r h h0 h3 h7]

/-- THE HIDDEN BLOCK a point stores, at entry `(p, q)`: the specification's new hidden state at `(r, h)`. -/
theorem hidden_block (x0 : Vec Ideal S512x4096 .bf16) (x1 x2 x3 x4 : Vec Ideal S256x4096 .bf16)
    (x5 x6 x7 x8 : Vec Ideal S1x256 .f32) (x9 : Vec Ideal S512x256 .f32)
    (U : Act) (C : State) (Wi : Wgt) (bi : Bias) (Wf : Wgt) (bf : Bias) (Wc : Wgt) (bc : Bias) (Wo : Wgt) (bo : Bias)
    (p : Fin 512) (q : Fin 256) (r : Fin 4096) (h : Fin 2048)
    (h0 : ∀ k : Fin 4096, x0 (ix2 p k) = U (ix2 r k))
    (h1 : ∀ k : Fin 4096, x1 (ix2 q k) = Wi (ix2 h k)) (h2 : ∀ k : Fin 4096, x2 (ix2 q k) = Wf (ix2 h k))
    (h3 : ∀ k : Fin 4096, x3 (ix2 q k) = Wc (ix2 h k)) (h4 : ∀ k : Fin 4096, x4 (ix2 q k) = Wo (ix2 h k))
    (h5 : x5 (ix2 (0 : Fin 1) q) = bi (ix1 h)) (h6 : x6 (ix2 (0 : Fin 1) q) = bf (ix1 h))
    (h7 : x7 (ix2 (0 : Fin 1) q) = bc (ix1 h)) (h8 : x8 (ix2 (0 : Fin 1) q) = bo (ix1 h))
    (h9 : x9 (ix2 p q) = C (ix2 r h)) :
    k0_pay2 (F := Ideal) (k0_pay4 x0 x1 x5) (k0_pay5 x0 x2 x6) (k0_pay6 x0 x3 x7) (k0_pay7 x0 x4 x8) x9 (ix2 p q)
      = hiddenAt U C Wi bi Wf bf Wc bc Wo bo r h := by
  unfold k0_pay2 hiddenAt
  show k0_pay7 (F := Ideal) x0 x4 x8 (ix2 p q)
      * Ideal.tanh (k0_pay1 (F := Ideal) (k0_pay4 x0 x1 x5) (k0_pay5 x0 x2 x6) (k0_pay6 x0 x3 x7) x9 (ix2 p q)) = _
  rw [pay7_at, preBlk_eq x0 x4 x8 U Wo bo p q r h h0 h4 h8,
    cell_block x0 x1 x2 x3 x5 x6 x7 x9 U C Wi bi Wf bf Wc bc p q r h h0 h1 h2 h3 h5 h6 h7 h9]

end Cert.Lstm.Ker

end
-- ==== Proof.KernelValue.lean ====
/-
  The kernel's two result arrays after the run are the LSTM cell of the specification.

  The grid has 8 × 8 points; point `(i, j)` reads rows `512 i …` of the joined activations and of the old cell
  state, rows `256 j …` of each gate's weights and entries `256 j …` of each gate's bias, and writes the
  `[512, 256]` block at `(512 i, 256 j)` of each result. So entry `(p, q)` of what a point writes is the
  specification at `(512 i + p, 256 j + q)`; the 64 blocks tile the `[4096, 2048]` results, so each result array is
  the specification's, everywhere. Before the region the host joins the two activation arrays and narrows the
  activations and weights to 16-bit floats — the identity on extended reals — and views each bias as one row.
-/
import proofs.«118416_j56100862820648_1_alg».proof.Proof.Gen.KernelIdeal.Value
import proofs.«118416_j56100862820648_1_alg».proof.Proof.KernelBlock
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open scoped BigOperators

namespace Cert.Lstm.KerValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Lstm.Ker

variable (m : (ℓ : Loc nD τ sig) → Buf (Elt Ideal) ℓ) (ρ : Dev nD → PrngReg)

theorem hz : (![0, 0] : Fin 2 → Nat) = fun _ => 0 := funext fun a => by fin_cases a <;> rfl

/-! ## The arrays as the region finds them -/

/-- The joined activations: the two activation arguments side by side. -/
abbrev act (c : Dev nD) : Act :=
  concatenate S4096x4096 1 [⟨S4096x2048, (m ((c : Thread nD τ).loc main_arg0))⟩, ⟨S4096x2048, (m ((c : Thread nD τ).loc main_arg1))⟩]
    concatenates_S4096x2048_S4096x2048_S4096x4096_d1

/-- The new cell state the specification gives for the arguments. -/
abbrev cellK (c : Dev nD) : Buf (Elt Ideal) ((c : Thread nD τ).loc main_v10_1) :=
  cell (act m c) (m ((c : Thread nD τ).loc main_arg2)) (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8))

/-- The new hidden state the specification gives for the arguments. -/
abbrev hiddenK (c : Dev nD) : Buf (Elt Ideal) ((c : Thread nD τ).loc main_v10_0) :=
  hidden (act m c) (m ((c : Thread nD τ).loc main_arg2)) (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))

/-- Narrowed to 16 bits, the joined activations are themselves. -/
theorem V_act (c : Dev nD) : (V m c main_v1 : S4096x4096.Idx → EReal) = act m c := by
  dsimp only [Gen.V, Gen.hostOps0]; after_results; rfl

theorem V_wi (c : Dev nD) : (V m c main_v2 : S2048x4096.Idx → EReal) = (m ((c : Thread nD τ).loc main_arg3)) := by
  dsimp only [Gen.V, Gen.hostOps0]; after_results; rfl

theorem V_wf (c : Dev nD) : (V m c main_v3 : S2048x4096.Idx → EReal) = (m ((c : Thread nD τ).loc main_arg5)) := by
  dsimp only [Gen.V, Gen.hostOps0]; after_results; rfl

theorem V_wc (c : Dev nD) : (V m c main_v4 : S2048x4096.Idx → EReal) = (m ((c : Thread nD τ).loc main_arg7)) := by
  dsimp only [Gen.V, Gen.hostOps0]; after_results; rfl

theorem V_wo (c : Dev nD) : (V m c main_v5 : S2048x4096.Idx → EReal) = (m ((c : Thread nD τ).loc main_arg9)) := by
  dsimp only [Gen.V, Gen.hostOps0]; after_results; rfl

/-- A bias viewed as one row: its entry `n` sits at `(0, n)`. -/
theorem V_bi (c : Dev nD) (n : Fin 2048) :
    (V m c main_v6 : S1x2048.Idx → EReal) (ix2 (0 : Fin 1) n) = ((m ((c : Thread nD τ).loc main_arg4)) : S2048.Idx → EReal) (ix1 n) := by
  have e : (V m c main_v6 : S1x2048.Idx → EReal) = shapeCast S1x2048 (m ((c : Thread nD τ).loc main_arg4)) shapeCasts_S2048_S1x2048 := by
    dsimp only [Gen.V, Gen.hostOps0]; after_results; rfl
  rw [e]; exact shapeCast_a_1a_apply _ _ 0 n

theorem V_bf (c : Dev nD) (n : Fin 2048) :
    (V m c main_v7 : S1x2048.Idx → EReal) (ix2 (0 : Fin 1) n) = ((m ((c : Thread nD τ).loc main_arg6)) : S2048.Idx → EReal) (ix1 n) := by
  have e : (V m c main_v7 : S1x2048.Idx → EReal) = shapeCast S1x2048 (m ((c : Thread nD τ).loc main_arg6)) shapeCasts_S2048_S1x2048 := by
    dsimp only [Gen.V, Gen.hostOps0]; after_results; rfl
  rw [e]; exact shapeCast_a_1a_apply _ _ 0 n

theorem V_bc (c : Dev nD) (n : Fin 2048) :
    (V m c main_v8 : S1x2048.Idx → EReal) (ix2 (0 : Fin 1) n) = ((m ((c : Thread nD τ).loc main_arg8)) : S2048.Idx → EReal) (ix1 n) := by
  have e : (V m c main_v8 : S1x2048.Idx → EReal) = shapeCast S1x2048 (m ((c : Thread nD τ).loc main_arg8)) shapeCasts_S2048_S1x2048 := by
    dsimp only [Gen.V, Gen.hostOps0]; after_results; rfl
  rw [e]; exact shapeCast_a_1a_apply _ _ 0 n

theorem V_bo (c : Dev nD) (n : Fin 2048) :
    (V m c main_v9 : S1x2048.Idx → EReal) (ix2 (0 : Fin 1) n) = ((m ((c : Thread nD τ).loc main_arg10)) : S2048.Idx → EReal) (ix1 n) := by
  have e : (V m c main_v9 : S1x2048.Idx → EReal) = shapeCast S1x2048 (m ((c : Thread nD τ).loc main_arg10)) shapeCasts_S2048_S1x2048 := by
    dsimp only [Gen.V, Gen.hostOps0]; after_results; rfl
  rw [e]; exact shapeCast_a_1a_apply _ _ 0 n

/-! ## The printed index maps, decided over the 64 points -/

/-- The activations' block follows the result's rows and spans all features. -/
theorem idx_act : ∀ t : Fin cfg0.N, win0_0.index t (0 : Fin 2) = win0_11.index t (0 : Fin 2) ∧ win0_0.index t (1 : Fin 2) = 0 :=
  (by decide +kernel : ∀ t : Fin grid0.N, _)

/-- Each gate's weight block follows the result's columns and spans all features. -/
theorem idx_w : ∀ t : Fin cfg0.N,
    (win0_1.index t (0 : Fin 2) = win0_11.index t (1 : Fin 2) ∧ win0_1.index t (1 : Fin 2) = 0)
    ∧ (win0_2.index t (0 : Fin 2) = win0_11.index t (1 : Fin 2) ∧ win0_2.index t (1 : Fin 2) = 0)
    ∧ (win0_3.index t (0 : Fin 2) = win0_11.index t (1 : Fin 2) ∧ win0_3.index t (1 : Fin 2) = 0)
    ∧ (win0_4.index t (0 : Fin 2) = win0_11.index t (1 : Fin 2) ∧ win0_4.index t (1 : Fin 2) = 0) :=
  (by decide +kernel : ∀ t : Fin grid0.N, _)

/-- Each gate's bias block is the one row, at the result's columns. -/
theorem idx_b : ∀ t : Fin cfg0.N,
    (win0_5.index t (0 : Fin 2) = 0 ∧ win0_5.index t (1 : Fin 2) = win0_11.index t (1 : Fin 2))
    ∧ (win0_6.index t (0 : Fin 2) = 0 ∧ win0_6.index t (1 : Fin 2) = win0_11.index t (1 : Fin 2))
    ∧ (win0_7.index t (0 : Fin 2) = 0 ∧ win0_7.index t (1 : Fin 2) = win0_11.index t (1 : Fin 2))
    ∧ (win0_8.index t (0 : Fin 2) = 0 ∧ win0_8.index t (1 : Fin 2) = win0_11.index t (1 : Fin 2)) :=
  (by decide +kernel : ∀ t : Fin grid0.N, _)

/-- The old cell state's block and the hidden result's block sit where the cell result's block sits. -/
theorem idx_c : ∀ t : Fin cfg0.N,
    (win0_9.index t (0 : Fin 2) = win0_11.index t (0 : Fin 2) ∧ win0_9.index t (1 : Fin 2) = win0_11.index t (1 : Fin 2))
    ∧ (win0_10.index t (0 : Fin 2) = win0_11.index t (0 : Fin 2) ∧ win0_10.index t (1 : Fin 2) = win0_11.index t (1 : Fin 2)) :=
  (by decide +kernel : ∀ t : Fin grid0.N, _)

/-- The result's block indices stay inside the 8 × 8 tiling. -/
theorem idx_rng : ∀ t : Fin cfg0.N, win0_11.index t (0 : Fin 2) ≤ 7 ∧ win0_11.index t (1 : Fin 2) ≤ 7 :=
  (by decide +kernel : ∀ t : Fin grid0.N, _)

/-- Every block of the tiling is some point's. -/
theorem idx_onto : ∀ (q0 : Fin 8) (q1 : Fin 8), ∃ t : Fin cfg0.N, win0_11.index t = ![q0.val, q1.val] :=
  (by decide +kernel : ∀ (q0 : Fin 8) (q1 : Fin 8), ∃ t : Fin grid0.N, win0_11.index t = ![q0.val, q1.val])

/-! ## A point's loaded blocks, read as rows of the arrays -/

section Point

variable (c : Dev nD) (t : Fin cfg0.N) (p : Fin 512) (q : Fin 256) (r : Fin 4096) (h : Fin 2048)
  (hr : r.val = win0_11.index t (0 : Fin 2) * 512 + p.val) (hh : h.val = win0_11.index t (1 : Fin 2) * 256 + q.val)

include hr in
/-- Row `p` of the activations' block is row `r` of the joined activations. -/
theorem rd_act (k : Fin 4096) : (iblk m c 0 t : Vec Ideal S512x4096 .bf16) (ix2 p k) = act m c (ix2 r k) := by
  obtain ⟨e0, e1⟩ := idx_act t
  unfold iblk
  show (V m c main_v1 : S4096x4096.Idx → EReal) (((cfg0.win 0).blk t).view.emb (ix2 p k)) = _
  rw [V_act]
  refine congrArg (act m c) (funext fun a => Fin.ext ?_)
  match a with
  | ⟨0, _⟩ => show win0_0.index t (0 : Fin 2) * 512 + 1 * p.val = r.val; omega
  | ⟨1, _⟩ => show win0_0.index t (1 : Fin 2) * 4096 + 1 * k.val = k.val; omega

include hh in
/-- Row `q` of the input gate's weight block is row `h` of its weights. -/
theorem rd_wi (k : Fin 4096) :
    (iblk m c 1 t : Vec Ideal S256x4096 .bf16) (ix2 q k) = ((m ((c : Thread nD τ).loc main_arg3)) : Wgt) (ix2 h k) := by
  obtain ⟨⟨e0, e1⟩, -⟩ := idx_w t
  unfold iblk
  show (V m c main_v2 : S2048x4096.Idx → EReal) (((cfg0.win 1).blk t).view.emb (ix2 q k)) = _
  rw [V_wi]
  refine congrArg ((m ((c : Thread nD τ).loc main_arg3)) : Wgt) (funext fun a => Fin.ext ?_)
  match a with
  | ⟨0, _⟩ => show win0_1.index t (0 : Fin 2) * 256 + 1 * q.val = h.val; omega
  | ⟨1, _⟩ => show win0_1.index t (1 : Fin 2) * 4096 + 1 * k.val = k.val; omega

include hh in
/-- The same for the forget gate. -/
theorem rd_wf (k : Fin 4096) :
    (iblk m c 2 t : Vec Ideal S256x4096 .bf16) (ix2 q k) = ((m ((c : Thread nD τ).loc main_arg5)) : Wgt) (ix2 h k) := by
  obtain ⟨-, ⟨e0, e1⟩, -⟩ := idx_w t
  unfold iblk
  show (V m c main_v3 : S2048x4096.Idx → EReal) (((cfg0.win 2).blk t).view.emb (ix2 q k)) = _
  rw [V_wf]
  refine congrArg ((m ((c : Thread nD τ).loc main_arg5)) : Wgt) (funext fun a => Fin.ext ?_)
  match a with
  | ⟨0, _⟩ => show win0_2.index t (0 : Fin 2) * 256 + 1 * q.val = h.val; omega
  | ⟨1, _⟩ => show win0_2.index t (1 : Fin 2) * 4096 + 1 * k.val = k.val; omega

include hh in
/-- The same for the candidate. -/
theorem rd_wc (k : Fin 4096) :
    (iblk m c 3 t : Vec Ideal S256x4096 .bf16) (ix2 q k) = ((m ((c : Thread nD τ).loc main_arg7)) : Wgt) (ix2 h k) := by
  obtain ⟨-, -, ⟨e0, e1⟩, -⟩ := idx_w t
  unfold iblk
  show (V m c main_v4 : S2048x4096.Idx → EReal) (((cfg0.win 3).blk t).view.emb (ix2 q k)) = _
  rw [V_wc]
  refine congrArg ((m ((c : Thread nD τ).loc main_arg7)) : Wgt) (funext fun a => Fin.ext ?_)
  match a with
  | ⟨0, _⟩ => show win0_3.index t (0 : Fin 2) * 256 + 1 * q.val = h.val; omega
  | ⟨1, _⟩ => show win0_3.index t (1 : Fin 2) * 4096 + 1 * k.val = k.val; omega

include hh in
/-- The same for the output gate. -/
theorem rd_wo (k : Fin 4096) :
    (iblk m c 4 t : Vec Ideal S256x4096 .bf16) (ix2 q k) = ((m ((c : Thread nD τ).loc main_arg9)) : Wgt) (ix2 h k) := by
  obtain ⟨-, -, -, e0, e1⟩ := idx_w t
  unfold iblk
  show (V m c main_v5 : S2048x4096.Idx → EReal) (((cfg0.win 4).blk t).view.emb (ix2 q k)) = _
  rw [V_wo]
  refine congrArg ((m ((c : Thread nD τ).loc main_arg9)) : Wgt) (funext fun a => Fin.ext ?_)
  match a with
  | ⟨0, _⟩ => show win0_4.index t (0 : Fin 2) * 256 + 1 * q.val = h.val; omega
  | ⟨1, _⟩ => show win0_4.index t (1 : Fin 2) * 4096 + 1 * k.val = k.val; omega

include hh in
/-- Entry `q` of the input gate's bias block is entry `h` of its bias. -/
theorem rd_bi : (iblk m c 5 t : Vec Ideal S1x256 .f32) (ix2 (0 : Fin 1) q) = ((m ((c : Thread nD τ).loc main_arg4)) : Bias) (ix1 h) := by
  obtain ⟨⟨e0, e1⟩, -⟩ := idx_b t
  unfold iblk
  show (V m c main_v6 : S1x2048.Idx → EReal) (((cfg0.win 5).blk t).view.emb (ix2 (0 : Fin 1) q)) = _
  rw [← V_bi m c h]
  refine congrArg (V m c main_v6 : S1x2048.Idx → EReal) (funext fun a => Fin.ext ?_)
  match a with
  | ⟨0, _⟩ => show win0_5.index t (0 : Fin 2) * 1 + 1 * 0 = 0; omega
  | ⟨1, _⟩ => show win0_5.index t (1 : Fin 2) * 256 + 1 * q.val = h.val; omega

include hh in
theorem rd_bf : (iblk m c 6 t : Vec Ideal S1x256 .f32) (ix2 (0 : Fin 1) q) = ((m ((c : Thread nD τ).loc main_arg6)) : Bias) (ix1 h) := by
  obtain ⟨-, ⟨e0, e1⟩, -⟩ := idx_b t
  unfold iblk
  show (V m c main_v7 : S1x2048.Idx → EReal) (((cfg0.win 6).blk t).view.emb (ix2 (0 : Fin 1) q)) = _
  rw [← V_bf m c h]
  refine congrArg (V m c main_v7 : S1x2048.Idx → EReal) (funext fun a => Fin.ext ?_)
  match a with
  | ⟨0, _⟩ => show win0_6.index t (0 : Fin 2) * 1 + 1 * 0 = 0; omega
  | ⟨1, _⟩ => show win0_6.index t (1 : Fin 2) * 256 + 1 * q.val = h.val; omega

include hh in
theorem rd_bc : (iblk m c 7 t : Vec Ideal S1x256 .f32) (ix2 (0 : Fin 1) q) = ((m ((c : Thread nD τ).loc main_arg8)) : Bias) (ix1 h) := by
  obtain ⟨-, -, ⟨e0, e1⟩, -⟩ := idx_b t
  unfold iblk
  show (V m c main_v8 : S1x2048.Idx → EReal) (((cfg0.win 7).blk t).view.emb (ix2 (0 : Fin 1) q)) = _
  rw [← V_bc m c h]
  refine congrArg (V m c main_v8 : S1x2048.Idx → EReal) (funext fun a => Fin.ext ?_)
  match a with
  | ⟨0, _⟩ => show win0_7.index t (0 : Fin 2) * 1 + 1 * 0 = 0; omega
  | ⟨1, _⟩ => show win0_7.index t (1 : Fin 2) * 256 + 1 * q.val = h.val; omega

include hh in
theorem rd_bo : (iblk m c 8 t : Vec Ideal S1x256 .f32) (ix2 (0 : Fin 1) q) = ((m ((c : Thread nD τ).loc main_arg10)) : Bias) (ix1 h) := by
  obtain ⟨-, -, -, e0, e1⟩ := idx_b t
  unfold iblk
  show (V m c main_v9 : S1x2048.Idx → EReal) (((cfg0.win 8).blk t).view.emb (ix2 (0 : Fin 1) q)) = _
  rw [← V_bo m c h]
  refine congrArg (V m c main_v9 : S1x2048.Idx → EReal) (funext fun a => Fin.ext ?_)
  match a with
  | ⟨0, _⟩ => show win0_8.index t (0 : Fin 2) * 1 + 1 * 0 = 0; omega
  | ⟨1, _⟩ => show win0_8.index t (1 : Fin 2) * 256 + 1 * q.val = h.val; omega

include hr hh in
/-- Entry `(p, q)` of the old cell state's block is its entry `(r, h)`. -/
theorem rd_c : (iblk m c 9 t : Vec Ideal S512x256 .f32) (ix2 p q) = ((m ((c : Thread nD τ).loc main_arg2)) : State) (ix2 r h) := by
  obtain ⟨⟨e0, e1⟩, -⟩ := idx_c t
  unfold iblk
  show (V m c main_arg2 : S4096x2048.Idx → EReal) (((cfg0.win 9).blk t).view.emb (ix2 p q)) = _
  rw [V_main_arg2]
  refine congrArg ((m ((c : Thread nD τ).loc main_arg2)) : State) (funext fun a => Fin.ext ?_)
  match a with
  | ⟨0, _⟩ => show win0_9.index t (0 : Fin 2) * 512 + 1 * p.val = r.val; omega
  | ⟨1, _⟩ => show win0_9.index t (1 : Fin 2) * 256 + 1 * q.val = h.val; omega

end Point

/-! ## What a point writes back -/

/-- POINT `t` WRITES BACK block `t` of the specification's cell state. -/
theorem flushed_cell (c : Dev nD) (t : Fin cfg0.N) :
    (dats m 0 c).flushed 11 t = ((cfg0.win 11).blk t).view.read (Elt Ideal) (cellK m c) := by
  rw [flushed11]
  unfold out0_11
  rw [View.canon_unit_zero hz]
  simp only [View.ld_unit_zero (S := S512x4096) hz, View.ld_unit_zero (S := S256x4096) hz, View.ld_unit_zero (S := S1x256) hz,
    View.ld_unit_zero (S := S512x256) hz]
  funext j
  have hj0 : (j 0).val < 512 := (j 0).isLt
  have hj1 : (j 1).val < 256 := (j 1).isLt
  have ej : (cfg0.win 11).xinj (grid0.coords t) j = ix2 (⟨(j 0).val, hj0⟩ : Fin 512) (⟨(j 1).val, hj1⟩ : Fin 256) :=
    funext fun a => Fin.ext (by
      match a with
      | ⟨0, _⟩ => rfl
      | ⟨1, _⟩ => rfl)
  show k0_pay1 (F := Ideal) (k0_pay4 (iblk m c 0 t) (iblk m c 1 t) (iblk m c 5 t)) (k0_pay5 (iblk m c 0 t) (iblk m c 2 t) (iblk m c 6 t)) (k0_pay6 (iblk m c 0 t) (iblk m c 3 t) (iblk m c 7 t)) (iblk m c 9 t) ((cfg0.win 11).xinj (grid0.coords t) j)
      = cellK m c (((cfg0.win 11).blk t).view.emb j)
  rw [ej]
  obtain ⟨-, g0, g1⟩ := idx_c t
  have hr : ((((cfg0.win 11).blk t).view.emb j) 0).val = win0_11.index t (0 : Fin 2) * 512 + (j 0).val := by
    show win0_11.index t (0 : Fin 2) * 512 + 1 * (j 0).val = _; omega
  have hh : ((((cfg0.win 11).blk t).view.emb j) 1).val = win0_11.index t (1 : Fin 2) * 256 + (j 1).val := by
    show win0_11.index t (1 : Fin 2) * 256 + 1 * (j 1).val = _; omega
  exact cell_block (iblk m c 0 t) (iblk m c 1 t) (iblk m c 2 t) (iblk m c 3 t) (iblk m c 5 t) (iblk m c 6 t) (iblk m c 7 t) (iblk m c 9 t)
    (act m c) (m ((c : Thread nD τ).loc main_arg2)) (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8))
    ⟨(j 0).val, hj0⟩ ⟨(j 1).val, hj1⟩ ((((cfg0.win 11).blk t).view.emb j) 0) ((((cfg0.win 11).blk t).view.emb j) 1)
    (rd_act m c t _ _ hr) (rd_wi m c t _ _ hh) (rd_wf m c t _ _ hh) (rd_wc m c t _ _ hh)
    (rd_bi m c t _ _ hh) (rd_bf m c t _ _ hh) (rd_bc m c t _ _ hh) (rd_c m c t _ _ _ _ hr hh)

/-- POINT `t` WRITES BACK block `t` of the specification's hidden state. -/
theorem flushed_hidden (c : Dev nD) (t : Fin cfg0.N) :
    (dats m 0 c).flushed 10 t = ((cfg0.win 10).blk t).view.read (Elt Ideal) (hiddenK m c) := by
  rw [flushed10]
  unfold out0_10
  rw [View.canon_unit_zero hz]
  simp only [View.ld_unit_zero (S := S512x4096) hz, View.ld_unit_zero (S := S256x4096) hz, View.ld_unit_zero (S := S1x256) hz,
    View.ld_unit_zero (S := S512x256) hz]
  funext j
  have hj0 : (j 0).val < 512 := (j 0).isLt
  have hj1 : (j 1).val < 256 := (j 1).isLt
  have ej : (cfg0.win 10).xinj (grid0.coords t) j = ix2 (⟨(j 0).val, hj0⟩ : Fin 512) (⟨(j 1).val, hj1⟩ : Fin 256) :=
    funext fun a => Fin.ext (by
      match a with
      | ⟨0, _⟩ => rfl
      | ⟨1, _⟩ => rfl)
  show k0_pay2 (F := Ideal) (k0_pay4 (iblk m c 0 t) (iblk m c 1 t) (iblk m c 5 t)) (k0_pay5 (iblk m c 0 t) (iblk m c 2 t) (iblk m c 6 t)) (k0_pay6 (iblk m c 0 t) (iblk m c 3 t) (iblk m c 7 t)) (k0_pay7 (iblk m c 0 t) (iblk m c 4 t) (iblk m c 8 t)) (iblk m c 9 t) ((cfg0.win 10).xinj (grid0.coords t) j)
      = hiddenK m c (((cfg0.win 10).blk t).view.emb j)
  rw [ej]
  obtain ⟨-, g0, g1⟩ := idx_c t
  have hr : ((((cfg0.win 10).blk t).view.emb j) 0).val = win0_11.index t (0 : Fin 2) * 512 + (j 0).val := by
    show win0_10.index t (0 : Fin 2) * 512 + 1 * (j 0).val = _; omega
  have hh : ((((cfg0.win 10).blk t).view.emb j) 1).val = win0_11.index t (1 : Fin 2) * 256 + (j 1).val := by
    show win0_10.index t (1 : Fin 2) * 256 + 1 * (j 1).val = _; omega
  exact hidden_block (iblk m c 0 t) (iblk m c 1 t) (iblk m c 2 t) (iblk m c 3 t) (iblk m c 4 t) (iblk m c 5 t) (iblk m c 6 t) (iblk m c 7 t) (iblk m c 8 t) (iblk m c 9 t)
    (act m c) (m ((c : Thread nD τ).loc main_arg2)) (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    ⟨(j 0).val, hj0⟩ ⟨(j 1).val, hj1⟩ ((((cfg0.win 10).blk t).view.emb j) 0) ((((cfg0.win 10).blk t).view.emb j) 1)
    (rd_act m c t _ _ hr) (rd_wi m c t _ _ hh) (rd_wf m c t _ _ hh) (rd_wc m c t _ _ hh) (rd_wo m c t _ _ hh)
    (rd_bi m c t _ _ hh) (rd_bf m c t _ _ hh) (rd_bc m c t _ _ hh) (rd_bo m c t _ _ hh) (rd_c m c t _ _ _ _ hr hh)

/-! ## From the blocks to the arrays -/

/-- An entry of the result is in point `t`'s block iff each coordinate is in the block's range on its axis. -/
theorem mem_blk11 (t : Fin cfg0.N) (i : S4096x2048.Idx) :
    i ∈ ((cfg0.win 11).blk t).view.set ↔ ∀ a : Fin 2, win0_11.index t a * S512x256.size a ≤ (i a).val ∧ (i a).val < win0_11.index t a * S512x256.size a + S512x256.size a := by
  show i ∈ ((View.whole main_v10_1).slice (win0_11.rect t)).set ↔ _
  rw [View.set_slice_whole, Rect.mem_set_unit]
  exact Iff.rfl

/-- The 64 blocks tile the result: entry `(r, h)` is in the block of the point at `(r / 512, h / 256)`. -/
theorem cover11 (i : S4096x2048.Idx) :
    ∃ t : Fin cfg0.N, (cfg0.win 11).flush t = true ∧ i ∈ ((cfg0.win 11).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_11.index t (0 : Fin 2) = (i 0).val / 512 := congrFun ht 0
  have q1 : win0_11.index t (1 : Fin 2) = (i 1).val / 256 := congrFun ht 1
  obtain ⟨-, g0, g1⟩ := idx_c t
  refine ⟨t, flush0_11 t, ?_⟩
  rw [mem_blk11]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 256 ≤ (i 1).val ∧ (i 1).val < win0_11.index t (1 : Fin 2) * 256 + 256; omega

/-- An entry of the result is in point `t`'s block iff each coordinate is in the block's range on its axis. -/
theorem mem_blk10 (t : Fin cfg0.N) (i : S4096x2048.Idx) :
    i ∈ ((cfg0.win 10).blk t).view.set ↔ ∀ a : Fin 2, win0_10.index t a * S512x256.size a ≤ (i a).val ∧ (i a).val < win0_10.index t a * S512x256.size a + S512x256.size a := by
  show i ∈ ((View.whole main_v10_0).slice (win0_10.rect t)).set ↔ _
  rw [View.set_slice_whole, Rect.mem_set_unit]
  exact Iff.rfl

/-- The 64 blocks tile the result: entry `(r, h)` is in the block of the point at `(r / 512, h / 256)`. -/
theorem cover10 (i : S4096x2048.Idx) :
    ∃ t : Fin cfg0.N, (cfg0.win 10).flush t = true ∧ i ∈ ((cfg0.win 10).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_11.index t (0 : Fin 2) = (i 0).val / 512 := congrFun ht 0
  have q1 : win0_11.index t (1 : Fin 2) = (i 1).val / 256 := congrFun ht 1
  obtain ⟨-, g0, g1⟩ := idx_c t
  refine ⟨t, flush0_10 t, ?_⟩
  rw [mem_blk10]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 256 ≤ (i 1).val ∧ (i 1).val < win0_10.index t (1 : Fin 2) * 256 + 256; omega

/-- THE CELL RESULT after the run is the specification's array. -/
theorem final_cell (c : Dev nD) : (dats m 0 c).arrAt 11 cfg0.N = cellK m c :=
  (dats m 0 c).arrAt_eq_of_cover 11 (cellK m c) (fun t _ => flushed_cell m c t) cover11

/-- THE HIDDEN RESULT after the run is the specification's array. -/
theorem final_hidden (c : Dev nD) : (dats m 0 c).arrAt 10 cfg0.N = hiddenK m c :=
  (dats m 0 c).arrAt_eq_of_cover 10 (hiddenK m c) (fun t _ => flushed_hidden m c t) cover10

/-! ## The run, read -/

/-- Every weakly fair execution of the kernel's program ends with the two results at the specification's arrays and
    the arguments unchanged. -/
theorem run : θ_run defs (onTc (τ := τ) (main (F := Ideal))) ⟨m, fun _ => 0, ρ⟩ fun r => ∀ c : Dev nD,
      r.2.mem ((c : Thread nD τ).loc main_v10_0) = hiddenK m c
      ∧ r.2.mem ((c : Thread nD τ).loc main_v10_1) = cellK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final_hidden m c), (h c).2.1.trans (final_cell m c), (h c).2.2⟩)
    (run_blocks m ρ)

end Cert.Lstm.KerValue

end
-- ==== Proof.RefValue.lean ====
/-
  The reference's two results, entry by entry, are the LSTM cell of the specification.

  The reference stacks the four gates' weight matrices into one [8192, 4096] matrix and the four biases into one
  vector of 8192, takes ONE product of the joined activations with the stacked matrix's transpose, adds the stacked
  bias, and cuts the [4096, 8192] result into four column bands of 2048. Row `2048·g + h` of the stack is row `h`
  of gate `g`'s matrix, so band `g` at `(r, h)` is `∑ k, u[r, k] · W_g[h, k] + b_g[h]`: gate `g`'s pre-activation.
  The logistic function is spelt out on the host as `1 / (1 + e⁻ˣ)`, which is what it is.
-/
import proofs.«118416_j56100862820648_1_alg».proof.Proof.Gen.ReferenceIdeal.Read
import proofs.«118416_j56100862820648_1_alg».proof.Proof.LstmSpec
import Idealize.ShloMosaic.Lib.Pipeline.Value
import Idealize.ShloMosaic.Lib.ValueIdx

noncomputable section

open scoped BigOperators

namespace Cert.Lstm.Ref

open Cert.ReferenceIdeal Cert.ReferenceIdeal.Gen Cert.ReferenceIdeal.Read
open Idealize.ShloMosaic Idealize.ShloMosaic.TcCoe Idealize.ShloMosaic.ValueIdx

variable (x0 x1 x2 : (⟨S4096x2048, .f32⟩ : BufTy).Contents (Elt Ideal))
  (x3 x5 x7 x9 : (⟨S2048x4096, .f32⟩ : BufTy).Contents (Elt Ideal))
  (x4 x6 x8 x10 : (⟨S2048, .f32⟩ : BufTy).Contents (Elt Ideal))

/-! ## The stacks read at a row -/

/-- Row `h` of the stacked matrix is row `h` of the first gate's. -/
theorem stackW_0 (h : Fin 2048) (k : Fin 4096) (n : Fin 8192) (hn : n.val = h.val) :
    val_main_v1 (F := Ideal) x3 x5 x7 x9 (ix2 n k) = x3 (ix2 h k) := by
  unfold val_main_v1
  refine concatenate_apply_piece (t := S8192x4096) (0 : Fin S8192x4096.rank) ([⟨S2048x4096, x3⟩, ⟨S2048x4096, x5⟩, ⟨S2048x4096, x7⟩, ⟨S2048x4096, x9⟩] : List ((s : Shape) × (s.Idx → Elt Ideal .f32))) concatenates_S2048x4096_S2048x4096_S2048x4096_S2048x4096_S8192x4096_d0 (ix2 n k) 0 (by show (0 : ℕ) < 4; decide) S2048x4096 x3 rfl rfl 0 rfl (ix2 h k) ?_ ?_
  · intro b hb
    match b with
    | ⟨0, _⟩ => exact absurd rfl hb
    | ⟨1, _⟩ => rfl
  · show 0 + h.val = n.val
    omega

/-- Row `2048 + h` of the stacked matrix is row `h` of the second gate's. -/
theorem stackW_1 (h : Fin 2048) (k : Fin 4096) (n : Fin 8192) (hn : n.val = 2048 + h.val) :
    val_main_v1 (F := Ideal) x3 x5 x7 x9 (ix2 n k) = x5 (ix2 h k) := by
  unfold val_main_v1
  refine concatenate_apply_piece (t := S8192x4096) (0 : Fin S8192x4096.rank) ([⟨S2048x4096, x3⟩, ⟨S2048x4096, x5⟩, ⟨S2048x4096, x7⟩, ⟨S2048x4096, x9⟩] : List ((s : Shape) × (s.Idx → Elt Ideal .f32))) concatenates_S2048x4096_S2048x4096_S2048x4096_S2048x4096_S8192x4096_d0 (ix2 n k) 1 (by show (1 : ℕ) < 4; decide) S2048x4096 x5 rfl rfl 2048 rfl (ix2 h k) ?_ ?_
  · intro b hb
    match b with
    | ⟨0, _⟩ => exact absurd rfl hb
    | ⟨1, _⟩ => rfl
  · show 2048 + h.val = n.val
    omega

/-- Row `4096 + h` of the stacked matrix is row `h` of the third gate's. -/
theorem stackW_2 (h : Fin 2048) (k : Fin 4096) (n : Fin 8192) (hn : n.val = 4096 + h.val) :
    val_main_v1 (F := Ideal) x3 x5 x7 x9 (ix2 n k) = x7 (ix2 h k) := by
  unfold val_main_v1
  refine concatenate_apply_piece (t := S8192x4096) (0 : Fin S8192x4096.rank) ([⟨S2048x4096, x3⟩, ⟨S2048x4096, x5⟩, ⟨S2048x4096, x7⟩, ⟨S2048x4096, x9⟩] : List ((s : Shape) × (s.Idx → Elt Ideal .f32))) concatenates_S2048x4096_S2048x4096_S2048x4096_S2048x4096_S8192x4096_d0 (ix2 n k) 2 (by show (2 : ℕ) < 4; decide) S2048x4096 x7 rfl rfl 4096 rfl (ix2 h k) ?_ ?_
  · intro b hb
    match b with
    | ⟨0, _⟩ => exact absurd rfl hb
    | ⟨1, _⟩ => rfl
  · show 4096 + h.val = n.val
    omega

/-- Row `6144 + h` of the stacked matrix is row `h` of the fourth gate's. -/
theorem stackW_3 (h : Fin 2048) (k : Fin 4096) (n : Fin 8192) (hn : n.val = 6144 + h.val) :
    val_main_v1 (F := Ideal) x3 x5 x7 x9 (ix2 n k) = x9 (ix2 h k) := by
  unfold val_main_v1
  refine concatenate_apply_piece (t := S8192x4096) (0 : Fin S8192x4096.rank) ([⟨S2048x4096, x3⟩, ⟨S2048x4096, x5⟩, ⟨S2048x4096, x7⟩, ⟨S2048x4096, x9⟩] : List ((s : Shape) × (s.Idx → Elt Ideal .f32))) concatenates_S2048x4096_S2048x4096_S2048x4096_S2048x4096_S8192x4096_d0 (ix2 n k) 3 (by show (3 : ℕ) < 4; decide) S2048x4096 x9 rfl rfl 6144 rfl (ix2 h k) ?_ ?_
  · intro b hb
    match b with
    | ⟨0, _⟩ => exact absurd rfl hb
    | ⟨1, _⟩ => rfl
  · show 6144 + h.val = n.val
    omega

/-- Entry `h` of the stacked bias is entry `h` of the first gate's. -/
theorem stackB_0 (h : Fin 2048) (n : Fin 8192) (hn : n.val = h.val) :
    val_main_v2 (F := Ideal) x4 x6 x8 x10 (ix1 n) = x4 (ix1 h) := by
  unfold val_main_v2
  refine concatenate_apply_piece (t := S8192) (0 : Fin S8192.rank) ([⟨S2048, x4⟩, ⟨S2048, x6⟩, ⟨S2048, x8⟩, ⟨S2048, x10⟩] : List ((s : Shape) × (s.Idx → Elt Ideal .f32))) concatenates_S2048_S2048_S2048_S2048_S8192_d0 (ix1 n) 0 (by show (0 : ℕ) < 4; decide) S2048 x4 rfl rfl 0 rfl (ix1 h) ?_ ?_
  · intro b hb
    match b with
    | ⟨0, _⟩ => exact absurd rfl hb
  · show 0 + h.val = n.val
    omega

theorem stackB_1 (h : Fin 2048) (n : Fin 8192) (hn : n.val = 2048 + h.val) :
    val_main_v2 (F := Ideal) x4 x6 x8 x10 (ix1 n) = x6 (ix1 h) := by
  unfold val_main_v2
  refine concatenate_apply_piece (t := S8192) (0 : Fin S8192.rank) ([⟨S2048, x4⟩, ⟨S2048, x6⟩, ⟨S2048, x8⟩, ⟨S2048, x10⟩] : List ((s : Shape) × (s.Idx → Elt Ideal .f32))) concatenates_S2048_S2048_S2048_S2048_S8192_d0 (ix1 n) 1 (by show (1 : ℕ) < 4; decide) S2048 x6 rfl rfl 2048 rfl (ix1 h) ?_ ?_
  · intro b hb
    match b with
    | ⟨0, _⟩ => exact absurd rfl hb
  · show 2048 + h.val = n.val
    omega

theorem stackB_2 (h : Fin 2048) (n : Fin 8192) (hn : n.val = 4096 + h.val) :
    val_main_v2 (F := Ideal) x4 x6 x8 x10 (ix1 n) = x8 (ix1 h) := by
  unfold val_main_v2
  refine concatenate_apply_piece (t := S8192) (0 : Fin S8192.rank) ([⟨S2048, x4⟩, ⟨S2048, x6⟩, ⟨S2048, x8⟩, ⟨S2048, x10⟩] : List ((s : Shape) × (s.Idx → Elt Ideal .f32))) concatenates_S2048_S2048_S2048_S2048_S8192_d0 (ix1 n) 2 (by show (2 : ℕ) < 4; decide) S2048 x8 rfl rfl 4096 rfl (ix1 h) ?_ ?_
  · intro b hb
    match b with
    | ⟨0, _⟩ => exact absurd rfl hb
  · show 4096 + h.val = n.val
    omega

theorem stackB_3 (h : Fin 2048) (n : Fin 8192) (hn : n.val = 6144 + h.val) :
    val_main_v2 (F := Ideal) x4 x6 x8 x10 (ix1 n) = x10 (ix1 h) := by
  unfold val_main_v2
  refine concatenate_apply_piece (t := S8192) (0 : Fin S8192.rank) ([⟨S2048, x4⟩, ⟨S2048, x6⟩, ⟨S2048, x8⟩, ⟨S2048, x10⟩] : List ((s : Shape) × (s.Idx → Elt Ideal .f32))) concatenates_S2048_S2048_S2048_S2048_S8192_d0 (ix1 n) 3 (by show (3 : ℕ) < 4; decide) S2048 x10 rfl rfl 6144 rfl (ix1 h) ?_ ?_
  · intro b hb
    match b with
    | ⟨0, _⟩ => exact absurd rfl hb
  · show 6144 + h.val = n.val
    omega

/-! ## The fused product plus bias, at an entry -/

/-- The [4096, 8192] array of all four gates' pre-activations at `(r, n)`: row `r` of the activations against row
    `n` of the stacked matrix, plus entry `n` of the stacked bias. -/
theorem fused_at (r : Fin 4096) (n : Fin 8192) :
    val_main_v7 (F := Ideal) x0 x1 x3 x4 x5 x6 x7 x8 x9 x10 (ix2 r n)
      = (∑ k : Fin 4096, val_main_v0 (F := Ideal) x0 x1 (ix2 r k) * val_main_v1 (F := Ideal) x3 x5 x7 x9 (ix2 n k))
        + val_main_v2 (F := Ideal) x4 x6 x8 x10 (ix1 n) := by
  have el : ∀ k : Fin 4096, lidx_main_v4 (ix2 r n) k = ix2 r k := fun k => funext fun a => Fin.ext (by
    match a with
    | ⟨0, _⟩ => rfl
    | ⟨1, _⟩ => rfl)
  have er : ∀ k : Fin 4096, idx_main_v3 (ridx_main_v4 (ix2 r n) k) = ix2 n k := fun k => funext fun a => Fin.ext (by
    match a with
    | ⟨0, _⟩ => rfl
    | ⟨1, _⟩ => rfl)
  have eb : idx_main_v5 (idx_main_v6 (ix2 r n)) = ix1 n := funext fun a => Fin.ext (by
    match a with
    | ⟨0, _⟩ => rfl)
  rw [val_main_v7_apply, val_main_v4_apply, val_main_v6_apply, val_main_v5_apply, eb]
  simp only [val_main_v3_apply, el, er]
  rfl

/-! ## The four bands are the four gates' pre-activations -/

theorem band_i (r : Fin 4096) (h : Fin 2048) :
    val_main_v8 (F := Ideal) x0 x1 x3 x4 x5 x6 x7 x8 x9 x10 (ix2 r h) = pre (val_main_v0 (F := Ideal) x0 x1) x3 x4 r h := by
  have e : idx_main_v8 (ix2 r h) = ix2 r (⟨h.val, by have := h.isLt; omega⟩ : Fin 8192) := funext fun a => Fin.ext (by
    match a with
    | ⟨0, _⟩ => rfl
    | ⟨1, _⟩ => rfl)
  rw [val_main_v8_apply, e, fused_at]
  unfold pre
  congr 1
  · exact Finset.sum_congr rfl fun k _ => by rw [stackW_0 x3 x5 x7 x9 h k _ rfl]
  · exact stackB_0 x4 x6 x8 x10 h _ rfl

theorem band_f (r : Fin 4096) (h : Fin 2048) :
    val_main_v9 (F := Ideal) x0 x1 x3 x4 x5 x6 x7 x8 x9 x10 (ix2 r h) = pre (val_main_v0 (F := Ideal) x0 x1) x5 x6 r h := by
  have e : idx_main_v9 (ix2 r h) = ix2 r (⟨2048 + h.val, by have := h.isLt; omega⟩ : Fin 8192) := funext fun a => Fin.ext (by
    match a with
    | ⟨0, _⟩ => rfl
    | ⟨1, _⟩ => rfl)
  rw [val_main_v9_apply, e, fused_at]
  unfold pre
  congr 1
  · exact Finset.sum_congr rfl fun k _ => by rw [stackW_1 x3 x5 x7 x9 h k _ rfl]
  · exact stackB_1 x4 x6 x8 x10 h _ rfl

theorem band_c (r : Fin 4096) (h : Fin 2048) :
    val_main_v10 (F := Ideal) x0 x1 x3 x4 x5 x6 x7 x8 x9 x10 (ix2 r h) = pre (val_main_v0 (F := Ideal) x0 x1) x7 x8 r h := by
  have e : idx_main_v10 (ix2 r h) = ix2 r (⟨4096 + h.val, by have := h.isLt; omega⟩ : Fin 8192) := funext fun a => Fin.ext (by
    match a with
    | ⟨0, _⟩ => rfl
    | ⟨1, _⟩ => rfl)
  rw [val_main_v10_apply, e, fused_at]
  unfold pre
  congr 1
  · exact Finset.sum_congr rfl fun k _ => by rw [stackW_2 x3 x5 x7 x9 h k _ rfl]
  · exact stackB_2 x4 x6 x8 x10 h _ rfl

theorem band_o (r : Fin 4096) (h : Fin 2048) :
    val_main_v11 (F := Ideal) x0 x1 x3 x4 x5 x6 x7 x8 x9 x10 (ix2 r h) = pre (val_main_v0 (F := Ideal) x0 x1) x9 x10 r h := by
  have e : idx_main_v11 (ix2 r h) = ix2 r (⟨6144 + h.val, by have := h.isLt; omega⟩ : Fin 8192) := funext fun a => Fin.ext (by
    match a with
    | ⟨0, _⟩ => rfl
    | ⟨1, _⟩ => rfl)
  rw [val_main_v11_apply, e, fused_at]
  unfold pre
  congr 1
  · exact Finset.sum_congr rfl fun k _ => by rw [stackW_3 x3 x5 x7 x9 h k _ rfl]
  · exact stackB_3 x4 x6 x8 x10 h _ rfl

/-! ## The gates and the two results -/

/-- The host spells the logistic function out as `1 / (1 + e⁻ˣ)`; that is the function. -/
theorem sigmoid_spelt (x : EReal) :
    FloatOps.hostDivf (F := Ideal) (φ := .f32) (FloatOps.ofBits .f32 0x3F800000#32)
      (FloatOps.addf (FloatOps.ofBits .f32 0x3F800000#32) (FloatOps.hostUnary .exp (FloatOps.hostNegf x)))
      = Ideal.logistic x := by
  show Ideal.div (Ideal.ofBits .f32 0x3F800000#32) (Ideal.ofBits .f32 0x3F800000#32 + Ideal.exp (-x)) = _
  rw [ofBits_one]
  rfl

/-- The input gate. -/
theorem sig_i (r : Fin 4096) (h : Fin 2048) :
    val_main_v17 (F := Ideal) x0 x1 x3 x4 x5 x6 x7 x8 x9 x10 (ix2 r h)
      = Ideal.logistic (pre (val_main_v0 (F := Ideal) x0 x1) x3 x4 r h) := by
  rw [val_main_v17_apply, val_main_v16_apply, val_main_cst_0_apply, val_main_v15_apply, val_main_v14_apply,
    val_main_cst_apply, val_main_v13_apply, val_main_v12_apply, band_i]
  exact sigmoid_spelt _

/-- The forget gate. -/
theorem sig_f (r : Fin 4096) (h : Fin 2048) :
    val_main_v23 (F := Ideal) x0 x1 x3 x4 x5 x6 x7 x8 x9 x10 (ix2 r h)
      = Ideal.logistic (pre (val_main_v0 (F := Ideal) x0 x1) x5 x6 r h) := by
  rw [val_main_v23_apply, val_main_v22_apply, val_main_cst_2_apply, val_main_v21_apply, val_main_v20_apply,
    val_main_cst_1_apply, val_main_v19_apply, val_main_v18_apply, band_f]
  exact sigmoid_spelt _

/-- The candidate. -/
theorem tanh_c (r : Fin 4096) (h : Fin 2048) :
    val_main_v24 (F := Ideal) x0 x1 x3 x4 x5 x6 x7 x8 x9 x10 (ix2 r h)
      = Ideal.tanh (pre (val_main_v0 (F := Ideal) x0 x1) x7 x8 r h) := by
  rw [val_main_v24_apply, band_c]
  rfl

/-- The output gate. -/
theorem sig_o (r : Fin 4096) (h : Fin 2048) :
    val_main_v30 (F := Ideal) x0 x1 x3 x4 x5 x6 x7 x8 x9 x10 (ix2 r h)
      = Ideal.logistic (pre (val_main_v0 (F := Ideal) x0 x1) x9 x10 r h) := by
  rw [val_main_v30_apply, val_main_v29_apply, val_main_cst_4_apply, val_main_v28_apply, val_main_v27_apply,
    val_main_cst_3_apply, val_main_v26_apply, val_main_v25_apply, band_o]
  exact sigmoid_spelt _

/-- The reference's new cell state at an entry is the specification's. -/
theorem cell_at (r : Fin 4096) (h : Fin 2048) :
    val_main_v33 (F := Ideal) x0 x1 x2 x3 x4 x5 x6 x7 x8 x9 x10 (ix2 r h)
      = cellAt (val_main_v0 (F := Ideal) x0 x1) x2 x3 x4 x5 x6 x7 x8 r h := by
  rw [val_main_v33_apply, val_main_v31_apply, val_main_v32_apply, sig_f, sig_i, tanh_c]
  rfl

/-- The reference's new hidden state at an entry is the specification's. -/
theorem hidden_at (r : Fin 4096) (h : Fin 2048) :
    val_main_v35 (F := Ideal) x0 x1 x2 x3 x4 x5 x6 x7 x8 x9 x10 (ix2 r h)
      = hiddenAt (val_main_v0 (F := Ideal) x0 x1) x2 x3 x4 x5 x6 x7 x8 x9 x10 r h := by
  rw [val_main_v35_apply, sig_o, val_main_v34_apply, cell_at]
  rfl

/-- THE REFERENCE'S CELL RESULT is the specification's array. -/
theorem cell_eq :
    val_main_v33 (F := Ideal) x0 x1 x2 x3 x4 x5 x6 x7 x8 x9 x10
      = cell (val_main_v0 (F := Ideal) x0 x1) x2 x3 x4 x5 x6 x7 x8 := by
  funext i
  obtain ⟨r, h, rfl⟩ : ∃ (r : Fin 4096) (h : Fin 2048), i = ix2 r h := ⟨i 0, i 1, eq_ix2 i⟩
  exact cell_at x0 x1 x2 x3 x5 x7 x9 x4 x6 x8 x10 r h

/-- THE REFERENCE'S HIDDEN RESULT is the specification's array. -/
theorem hidden_eq :
    val_main_v35 (F := Ideal) x0 x1 x2 x3 x4 x5 x6 x7 x8 x9 x10
      = hidden (val_main_v0 (F := Ideal) x0 x1) x2 x3 x4 x5 x6 x7 x8 x9 x10 := by
  funext i
  obtain ⟨r, h, rfl⟩ : ∃ (r : Fin 4096) (h : Fin 2048), i = ix2 r h := ⟨i 0, i 1, eq_ix2 i⟩
  exact hidden_at x0 x1 x2 x3 x5 x7 x9 x4 x6 x8 x10 r h

end Cert.Lstm.Ref

end
-- ==== Proof.lean ====
/-
  An LSTM cell computed by one tiled kernel against the same cell computed with one fused product: equal, entry by
  entry, on the extended reals.

  Both programs join the two activation arrays into `u` (4096 features a row). The kernel, per 512 × 256 tile of
  the results, multiplies its rows of `u` by the transpose of each gate's 256 rows of weights, adds the gate's bias,
  and combines: `cell = c · σ(f) + σ(i) · tanh(g)`, `hidden = σ(o) · tanh(cell)`. The reference stacks the four
  weight matrices and the four biases, takes one product with the stack's transpose, and cuts the result into four
  bands of columns. Row `2048 g + h` of the stack is row `h` of gate `g`, so band `g` at `(r, h)` and the kernel's
  tile entry are the same sum `∑ k, u[r, k] · W_g[h, k] + b_g[h]` — the same terms in the same order, so no law of
  arithmetic beyond that is used and the inputs' finiteness is never opened. The kernel's narrowing of activations
  and weights to 16-bit floats is the identity on extended reals; its logistic function is `1 / (1 + e⁻ˣ)`, which
  is how the reference spells it.
  The three frames are the generated ones (the reference's is its generated run with the results dropped); the
  kernel's idealization rewrote nothing.
-/
import proofs.«118416_j56100862820648_1_alg».proof.Defs
import proofs.«118416_j56100862820648_1_alg».proof.Proof.Gen.Kernel
import proofs.«118416_j56100862820648_1_alg».proof.Proof.Gen.Kernel.Skeleton
import proofs.«118416_j56100862820648_1_alg».proof.Proof.Gen.Kernel.Launch
import proofs.«118416_j56100862820648_1_alg».proof.Proof.Gen.Kernel.Points
import proofs.«118416_j56100862820648_1_alg».proof.Proof.Gen.Kernel.Frame
import proofs.«118416_j56100862820648_1_alg».proof.Proof.Gen.KernelIdeal
import proofs.«118416_j56100862820648_1_alg».proof.Proof.Gen.KernelIdeal.Skeleton
import proofs.«118416_j56100862820648_1_alg».proof.Proof.Gen.KernelIdeal.Launch
import proofs.«118416_j56100862820648_1_alg».proof.Proof.Gen.KernelIdeal.Points
import proofs.«118416_j56100862820648_1_alg».proof.Proof.Gen.KernelIdeal.Frame
import proofs.«118416_j56100862820648_1_alg».proof.Proof.Gen.ReferenceIdeal
import proofs.«118416_j56100862820648_1_alg».proof.Proof.Gen.Pre_finite_inputs
import proofs.«118416_j56100862820648_1_alg».proof.Proof.Gen.KernelIdeal.Value
import proofs.«118416_j56100862820648_1_alg».proof.Proof.Gen.ReferenceIdeal.Run
import proofs.«118416_j56100862820648_1_alg».proof.Proof.Gen.ReferenceIdeal.Read
import proofs.«118416_j56100862820648_1_alg».proof.Proof.KernelValue
import proofs.«118416_j56100862820648_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments as they were: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten in reading the kernel on the extended reals. -/
theorem preserves : Cert.preserves_Kernel_KernelIdeal := trivial

/-- From arguments that agree, the kernel ends with its two results at the specification's hidden and cell arrays
    (the tiles put together), and the reference ends with its two results at the same arrays (the bands of the
    fused product read gate by gate). -/
theorem algebraic : Cert.algebraic_KernelIdeal_ReferenceIdeal := by
  intro m ρ m' ρ' _ hagree
  refine ⟨fun c => Cert.Lstm.KerValue.hiddenK m c, fun c => Cert.Lstm.KerValue.cellK m c, Cert.Lstm.KerValue.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10⟩ := hagree c
  refine ⟨(h c).1.trans ?_, (h c).2.1.trans ?_, (h c).2.2⟩
  · rw [Cert.ReferenceIdeal.Read.val_main_v35_eq, Cert.Lstm.Ref.hidden_eq, a0, a1, a2, a3, a4, a5, a6, a7, a8, a9, a10]
    rfl
  · refine (Cert.ReferenceIdeal.Read.val_main_v33_eq _ _ _ _ _ _ _ _ _ _ _).trans ?_
    rw [Cert.Lstm.Ref.cell_eq, a0, a1, a2, a3, a4, a5, a6, a7, a8]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
